-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x80x192x192 : Shape := ⟨4, ![16, 80, 192, 192]⟩
abbrev S_ : Shape := ⟨0, ![]⟩

class Facts : Prop where
  bcast_S_S16x80x192x192 : S_.BroadcastsInDim S16x80x192x192 (![] : Fin 0 → Fin S16x80x192x192.rank)
  reducesTo_S16x80x192x192_S_d0_1_2_3 : S16x80x192x192.ReducesTo [0, 1, 2, 3] S_
  h_S_ : 0 < S_.numel

variable [Facts]

def fn {F : FTy → Type} [FloatOps F] (main_arg0 : FVec F S16x80x192x192 .f32) : IVec S_ 1 :=
  let main_v0 : FVec F S16x80x192x192 .f32 := Host.absf main_arg0
  let main_cst : FVec F S_ .f32 := constant S_ .f32 0x7F800000#32
  let main_v1 : FVec F S16x80x192x192 .f32 := broadcastInDim S16x80x192x192 ![] bcast_S_S16x80x192x192 main_cst
  let main_v2 : IVec S16x80x192x192 1 := cmpf .olt main_v0 main_v1
  let main_c : IVec S_ 1 := constantI S_ 1 1#1
  let main_v3 : IVec S_ 1 := (fun x v => Host.reduce IntOp.andi x v reducesTo_S16x80x192x192_S_d0_1_2_3 h_S_) main_v2 main_c
  main_v3
-- ==== Kernel.lean ====
abbrev S16x80x192x192 : Shape := ⟨4, ![16, 80, 192, 192]⟩
abbrev S1280x192x192 : Shape := ⟨3, ![1280, 192, 192]⟩
abbrev S16x192x192 : Shape := ⟨3, ![16, 192, 192]⟩
abbrev S16x1x192 : Shape := ⟨3, ![16, 1, 192]⟩
abbrev S16x194x192 : Shape := ⟨3, ![16, 194, 192]⟩
abbrev S16x192x1 : Shape := ⟨3, ![16, 192, 1]⟩
abbrev S16x192x194 : Shape := ⟨3, ![16, 192, 194]⟩
abbrev S16x2x192 : Shape := ⟨3, ![16, 2, 192]⟩
abbrev S16x196x192 : Shape := ⟨3, ![16, 196, 192]⟩
abbrev S16x192x2 : Shape := ⟨3, ![16, 192, 2]⟩
abbrev S16x192x196 : Shape := ⟨3, ![16, 192, 196]⟩
abbrev S16x3x192 : Shape := ⟨3, ![16, 3, 192]⟩
abbrev S16x198x192 : Shape := ⟨3, ![16, 198, 192]⟩
abbrev S16x192x3 : Shape := ⟨3, ![16, 192, 3]⟩
abbrev S16x192x198 : Shape := ⟨3, ![16, 192, 198]⟩

abbrev nBuf : Space → Nat
  | .hbm => 4
  | .vmem => 4
  | .smem => 0
  | _ => 0

abbrev bufTy : (tb : Table) → Fin (tcTables nBuf tb) → BufTy
  | .hbm, ⟨0, _⟩ => ⟨S16x80x192x192, .f32⟩
  | .hbm, ⟨1, _⟩ => ⟨S1280x192x192, .f32⟩
  | .hbm, ⟨2, _⟩ => ⟨S1280x192x192, .f32⟩
  | .hbm, ⟨3, _⟩ => ⟨S16x80x192x192, .f32⟩
  | .local _ .vmem, ⟨0, _⟩ => ⟨S16x192x192, .f32⟩
  | .local _ .vmem, ⟨1, _⟩ => ⟨S16x192x192, .f32⟩
  | .local _ .vmem, ⟨2, _⟩ => ⟨S16x192x192, .f32⟩
  | .local _ .vmem, ⟨3, _⟩ => ⟨S16x192x192, .f32⟩
  | _, _ => ⟨S16x80x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![80], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x80x192x192_S1280x192x192 : S16x80x192x192.ShapeCasts S1280x192x192
  inb_S16x192x192_S16x192x192_0_0_0 : ∀ a, (![0, 0, 0] : Fin 3 → Nat) a + S16x192x192.size a ≤ S16x192x192.size a
  h_S16x192x192 : 0 < S16x192x192.numel
  shapeCasts_S16x192x192_S16x192x192 : S16x192x192.ShapeCasts S16x192x192
  concatenates_S16x1x192_S16x192x192_S16x1x192_S16x194x192_d1 : Shape.Concatenates [S16x1x192, S16x192x192, S16x1x192] S16x194x192 1
  slices_S16x194x192_o0_0_0_S16x192x192 : S16x194x192.Slices ![0, 0, 0] S16x192x192
  slices_S16x194x192_o0_1_0_S16x192x192 : S16x194x192.Slices ![0, 1, 0] S16x192x192
  slices_S16x194x192_o0_2_0_S16x192x192 : S16x194x192.Slices ![0, 2, 0] S16x192x192
  concatenates_S16x192x1_S16x192x192_S16x192x1_S16x192x194_d2 : Shape.Concatenates [S16x192x1, S16x192x192, S16x192x1] S16x192x194 2
  slices_S16x192x194_o0_0_0_S16x192x192 : S16x192x194.Slices ![0, 0, 0] S16x192x192
  slices_S16x192x194_o0_0_1_S16x192x192 : S16x192x194.Slices ![0, 0, 1] S16x192x192
  slices_S16x192x194_o0_0_2_S16x192x192 : S16x192x194.Slices ![0, 0, 2] S16x192x192
  natLt_1_32 : 1 < 32
  concatenates_S16x2x192_S16x192x192_S16x2x192_S16x196x192_d1 : Shape.Concatenates [S16x2x192, S16x192x192, S16x2x192] S16x196x192 1
  slices_S16x196x192_o0_0_0_S16x192x192 : S16x196x192.Slices ![0, 0, 0] S16x192x192
  slices_S16x196x192_o0_1_0_S16x192x192 : S16x196x192.Slices ![0, 1, 0] S16x192x192
  slices_S16x196x192_o0_2_0_S16x192x192 : S16x196x192.Slices ![0, 2, 0] S16x192x192
  slices_S16x196x192_o0_3_0_S16x192x192 : S16x196x192.Slices ![0, 3, 0] S16x192x192
  slices_S16x196x192_o0_4_0_S16x192x192 : S16x196x192.Slices ![0, 4, 0] S16x192x192
  concatenates_S16x192x2_S16x192x192_S16x192x2_S16x192x196_d2 : Shape.Concatenates [S16x192x2, S16x192x192, S16x192x2] S16x192x196 2
  slices_S16x192x196_o0_0_0_S16x192x192 : S16x192x196.Slices ![0, 0, 0] S16x192x192
  slices_S16x192x196_o0_0_1_S16x192x192 : S16x192x196.Slices ![0, 0, 1] S16x192x192
  slices_S16x192x196_o0_0_2_S16x192x192 : S16x192x196.Slices ![0, 0, 2] S16x192x192
  slices_S16x192x196_o0_0_3_S16x192x192 : S16x192x196.Slices ![0, 0, 3] S16x192x192
  slices_S16x192x196_o0_0_4_S16x192x192 : S16x192x196.Slices ![0, 0, 4] S16x192x192
  concatenates_S16x3x192_S16x192x192_S16x3x192_S16x198x192_d1 : Shape.Concatenates [S16x3x192, S16x192x192, S16x3x192] S16x198x192 1
  slices_S16x198x192_o0_0_0_S16x192x192 : S16x198x192.Slices ![0, 0, 0] S16x192x192
  slices_S16x198x192_o0_1_0_S16x192x192 : S16x198x192.Slices ![0, 1, 0] S16x192x192
  slices_S16x198x192_o0_2_0_S16x192x192 : S16x198x192.Slices ![0, 2, 0] S16x192x192
  slices_S16x198x192_o0_3_0_S16x192x192 : S16x198x192.Slices ![0, 3, 0] S16x192x192
  slices_S16x198x192_o0_4_0_S16x192x192 : S16x198x192.Slices ![0, 4, 0] S16x192x192
  slices_S16x198x192_o0_5_0_S16x192x192 : S16x198x192.Slices ![0, 5, 0] S16x192x192
  slices_S16x198x192_o0_6_0_S16x192x192 : S16x198x192.Slices ![0, 6, 0] S16x192x192
  concatenates_S16x192x3_S16x192x192_S16x192x3_S16x192x198_d2 : Shape.Concatenates [S16x192x3, S16x192x192, S16x192x3] S16x192x198 2
  slices_S16x192x198_o0_0_0_S16x192x192 : S16x192x198.Slices ![0, 0, 0] S16x192x192
  slices_S16x192x198_o0_0_1_S16x192x192 : S16x192x198.Slices ![0, 0, 1] S16x192x192
  slices_S16x192x198_o0_0_2_S16x192x192 : S16x192x198.Slices ![0, 0, 2] S16x192x192
  slices_S16x192x198_o0_0_3_S16x192x192 : S16x192x198.Slices ![0, 0, 3] S16x192x192
  slices_S16x192x198_o0_0_4_S16x192x192 : S16x192x198.Slices ![0, 0, 4] S16x192x192
  slices_S16x192x198_o0_0_5_S16x192x192 : S16x192x198.Slices ![0, 0, 5] S16x192x192
  slices_S16x192x198_o0_0_6_S16x192x192 : S16x192x198.Slices ![0, 0, 6] S16x192x192
  shapeCasts_S1280x192x192_S16x80x192x192 : S1280x192x192.ShapeCasts S16x80x192x192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x192x192.size a ≤ S1280x192x192.size a
  hwx0_0 : ∀ i : grid0.Coords, EltTy.bits .f32 = 32 ∨ (Rect.block (s := S1280x192x192) S16x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x192x192.size a ≤ S1280x192x192.size a
  hwx0_1 : ∀ i : grid0.Coords, EltTy.bits .f32 = 32 ∨ (Rect.block (s := S1280x192x192) S16x192x192.size (cc0_transform_1 i) (hinb0_1 i)).WholeWords (EltTy.packing .f32)

variable [Facts₀]

abbrev win0_0 : Pipeline.Window sig grid0 :=
  Pipeline.Window.ofSpec (Memref.whole main_v0) S16x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x192x192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x80x192x192 : Shape := ⟨4, ![16, 80, 192, 192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16x80x192x192, .f32⟩
  | .hbm, ⟨1, _⟩ => ⟨S_, .f32⟩
  | .hbm, ⟨2, _⟩ => ⟨S_, .f32⟩
  | .hbm, ⟨3, _⟩ => ⟨S16x80x192x192, .f32⟩
  | .hbm, ⟨4, _⟩ => ⟨S16x80x192x192, .i1⟩
  | .hbm, ⟨5, _⟩ => ⟨S_, .f32⟩
  | .hbm, ⟨6, _⟩ => ⟨S_, .f32⟩
  | .hbm, ⟨7, _⟩ => ⟨S16x80x192x192, .f32⟩
  | .hbm, ⟨8, _⟩ => ⟨S16x80x192x192, .i1⟩
  | .hbm, ⟨9, _⟩ => ⟨S_, .f32⟩
  | .hbm, ⟨10, _⟩ => ⟨S_, .f32⟩
  | .hbm, ⟨11, _⟩ => ⟨S16x80x192x192, .f32⟩
  | .hbm, ⟨12, _⟩ => ⟨S16x80x192x192, .i1⟩
  | .hbm, ⟨13, _⟩ => ⟨S16x80x192x192, .f32⟩
  | .hbm, ⟨14, _⟩ => ⟨S16x80x192x192, .f32⟩
  | .hbm, ⟨15, _⟩ => ⟨S16x80x192x192, .f32⟩
  | .hbm, ⟨16, _⟩ => ⟨S16x80x192x192, .f32⟩
  | .hbm, ⟨17, _⟩ => ⟨S16x80x192x192, .f32⟩
  | .hbm, ⟨18, _⟩ => ⟨S16x80x192x192, .f32⟩
  | _, _ => ⟨S16x80x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S16x80x192x192_S16x80x192x192_w1s1p0_0_w1s1p0_0_w3s1p1_1_w3s1p1_1 : S16x80x192x192.ReduceWindows (![1, 1, 3, 3] : Fin 4 → Nat) ![1, 1, 1, 1] ![0, 0, 1, 1] ![0, 0, 1, 1] S16x80x192x192
  h_S_ : 0 < S_.numel
  reduceWindows_S16x80x192x192_S16x80x192x192_w1s1p0_0_w1s1p0_0_w5s1p2_2_w5s1p2_2 : S16x80x192x192.ReduceWindows (![1, 1, 5, 5] : Fin 4 → Nat) ![1, 1, 1, 1] ![0, 0, 2, 2] ![0, 0, 2, 2] S16x80x192x192
  reduceWindows_S16x80x192x192_S16x80x192x192_w1s1p0_0_w1s1p0_0_w7s1p3_3_w7s1p3_3 : S16x80x192x192.ReduceWindows (![1, 1, 7, 7] : Fin 4 → Nat) ![1, 1, 1, 1] ![0, 0, 3, 3] ![0, 0, 3, 3] S16x80x192x192

variable [Facts₀]

class Facts : Prop extends Facts₀ where

variable [Facts]
-- ==== Proof.PadWindow.lean ====
/-
  Padded windows and their maxima on the extended reals.

  A "same"-size max-pool reads, at every position, a window of the array laid over a border of
  `-∞`. This file holds what both programs' pools are measured against: the value read at a
  position of an axis padded by `p` on both ends (`padRead`), when a running maximum is bounded
  (a left fold of `max`, and the nested maxima of 3, 5 and 7 values), and how a padded array —
  a constant border, the array, the border again, joined along the middle or the last axis of a
  rank-3 shape — and a unit-stride slice of it are read at an index.
-/
import Idealize.ShloMosaic.PureOps.Ideal
import Idealize.ShloMosaic.Lib.ValueIdx
import Idealize.ShloMosaic.Lib.Pipeline.Value

noncomputable section

namespace Cert.Nms

open Idealize.ShloMosaic Idealize.ShloMosaic.ValueIdx

/-! ## Bounds of running maxima -/

/-- A left fold of `max` from `a` lies below `v` exactly when `a` and every folded value do. -/
theorem foldl_max_le_iff {ι : Type} (g : ι → EReal) (l : List ι) (a v : EReal) :
    l.foldl (fun r n => max r (g n)) a ≤ v ↔ a ≤ v ∧ ∀ n ∈ l, g n ≤ v := by
  induction l generalizing a with
  | nil => simp
  | cons x l ih =>
    rw [List.foldl_cons, ih, max_le_iff]
    simp only [List.mem_cons, forall_eq_or_imp, and_assoc]

/-- The maximum of three values lies below `v` exactly when each does. -/
theorem max3_le_iff (a : ℕ → EReal) (v : EReal) :
    max (max (a 0) (a 1)) (a 2) ≤ v ↔ ∀ d, d < 3 → a d ≤ v := by
  simp only [max_le_iff]
  constructor
  · rintro ⟨⟨h0, h1⟩, h2⟩ d hd
    interval_cases d <;> assumption
  · intro h
    exact ⟨⟨h 0 (by omega), h 1 (by omega)⟩, h 2 (by omega)⟩

/-- The maximum of five values lies below `v` exactly when each does. -/
theorem max5_le_iff (a : ℕ → EReal) (v : EReal) :
    max (max (max (max (a 0) (a 1)) (a 2)) (a 3)) (a 4) ≤ v ↔ ∀ d, d < 5 → a d ≤ v := by
  simp only [max_le_iff]
  constructor
  · rintro ⟨⟨⟨⟨h0, h1⟩, h2⟩, h3⟩, h4⟩ d hd
    interval_cases d <;> assumption
  · intro h
    exact ⟨⟨⟨⟨h 0 (by omega), h 1 (by omega)⟩, h 2 (by omega)⟩, h 3 (by omega)⟩, h 4 (by omega)⟩

/-- The maximum of seven values lies below `v` exactly when each does. -/
theorem max7_le_iff (a : ℕ → EReal) (v : EReal) :
    max (max (max (max (max (max (a 0) (a 1)) (a 2)) (a 3)) (a 4)) (a 5)) (a 6) ≤ v ↔ ∀ d, d < 7 → a d ≤ v := by
  simp only [max_le_iff]
  constructor
  · rintro ⟨⟨⟨⟨⟨⟨h0, h1⟩, h2⟩, h3⟩, h4⟩, h5⟩, h6⟩ d hd
    interval_cases d <;> assumption
  · intro h
    exact ⟨⟨⟨⟨⟨⟨h 0 (by omega), h 1 (by omega)⟩, h 2 (by omega)⟩, h 3 (by omega)⟩, h 4 (by omega)⟩,
      h 5 (by omega)⟩, h 6 (by omega)⟩

/-! ## Reading an axis padded with `-∞` -/

/-- Position `r` of an axis of `N` values `f` padded by `p` at both ends with the border value `c`:
    the value `f (r - p)` where that is a position of the axis, `c` in the border. -/
def padRead {N : ℕ} (p : ℕ) (c : EReal) (f : Fin N → EReal) (r : ℕ) : EReal :=
  if h : p ≤ r ∧ r - p < N then f ⟨r - p, h.2⟩ else c

/-- With the border at `-∞`, a padded read lies below `v` exactly when the value it reads, if it
    reads one, does. -/
theorem padRead_le_iff {N : ℕ} (p : ℕ) (f : Fin N → EReal) (r : ℕ) (v : EReal) :
    padRead p ⊥ f r ≤ v ↔ ∀ h : p ≤ r ∧ r - p < N, f ⟨r - p, h.2⟩ ≤ v := by
  unfold padRead
  split
  · next h => exact ⟨fun hv _ => hv, fun hv => hv h⟩
  · next h => exact ⟨fun _ h' => absurd h' h, fun _ => bot_le⟩

/-! ## The maximum over a square window of a padded plane -/

/-- `v` bounds the `k × k` window at `(h, w)` of the plane `g` padded by `p` all round: every entry of
    the plane under the window lies below `v` (the border, at `-∞`, asks nothing). -/
def WinBound (k p : ℕ) {N M : ℕ} (g : Fin N → Fin M → EReal) (h w : ℕ) (v : EReal) : Prop :=
  ∀ dh, dh < k → ∀ dw, dw < k → ∀ (hh : p ≤ dh + h ∧ dh + h - p < N) (hw : p ≤ dw + w ∧ dw + w - p < M),
    g ⟨dh + h - p, hh.2⟩ ⟨dw + w - p, hw.2⟩ ≤ v

/-- The maximum over the `k × k` window at `(h, w)` of the plane `g` padded with `-∞`, `p` deep. -/
def pool2 (k p : ℕ) {N M : ℕ} (g : Fin N → Fin M → EReal) (h w : ℕ) : EReal :=
  (Finset.range k).sup fun dh => (Finset.range k).sup fun dw =>
    padRead p ⊥ (fun h' => padRead p ⊥ (fun w' => g h' w') (dw + w)) (dh + h)

/-- The window's maximum lies below `v` exactly when `v` bounds the window. -/
theorem pool2_le_iff (k p : ℕ) {N M : ℕ} (g : Fin N → Fin M → EReal) (h w : ℕ) (v : EReal) :
    pool2 k p g h w ≤ v ↔ WinBound k p g h w v := by
  unfold pool2 WinBound
  simp only [Finset.sup_le_iff, Finset.mem_range, padRead_le_iff]

/-- A value with the window's bounds is the window's maximum. -/
theorem eq_pool2_of_bound {k p : ℕ} {N M : ℕ} {g : Fin N → Fin M → EReal} {h w : ℕ} (a : EReal)
    (H : ∀ v, a ≤ v ↔ WinBound k p g h w v) : a = pool2 k p g h w :=
  eq_of_forall_ge_iff fun v => (H v).trans (pool2_le_iff k p g h w v).symm

/-- SEPARABILITY: a running maximum of `k` values (`chain`) taken down the columns of the padded plane
    and then, on the result padded again, along the rows, is the maximum over the `k × k` window. -/
theorem sep_pool (k p : ℕ) (chain : (ℕ → EReal) → EReal)
    (hchain : ∀ a v, chain a ≤ v ↔ ∀ d, d < k → a d ≤ v) {N M : ℕ} (g : Fin N → Fin M → EReal) (h w : ℕ) :
    chain (fun dw => padRead p ⊥ (fun w' => chain fun dh => padRead p ⊥ (fun h' => g h' w') (dh + h)) (dw + w))
      = pool2 k p g h w := by
  refine eq_pool2_of_bound _ fun v => ?_
  unfold WinBound
  simp only [hchain, padRead_le_iff]
  constructor
  · intro H dh hdh dw hdw hh hw
    exact H dw hdw hw dh hdh hh
  · intro H dw hdw hw dh hdh hh
    exact H dh hdh dw hdw hh hw

/-! ## A padded rank-3 array and its slices, read at an index -/

section Layout
variable {α : Type}

/-- A rank-3 array padded by the constant `c`, `p` deep on both ends of its MIDDLE axis, read at
    `(b, r, w)`: the array at `(b, r - p, w)` where `r - p` is a position of the axis, else `c`. -/
theorem concat_pad_mid {B p N M T : ℕ} (c : α) (x : (⟨3, ![B, N, M]⟩ : Shape).Idx → α)
    (h : Shape.Concatenates [(⟨3, ![B, p, M]⟩ : Shape), ⟨3, ![B, N, M]⟩, ⟨3, ![B, p, M]⟩] ⟨3, ![B, T, M]⟩ (1 : Fin 3))
    (b : Fin B) (r : Fin T) (w : Fin M) :
    concatenate (⟨3, ![B, T, M]⟩ : Shape) (1 : Fin 3)
        [⟨⟨3, ![B, p, M]⟩, broadcast _ c⟩, ⟨⟨3, ![B, N, M]⟩, x⟩, ⟨⟨3, ![B, p, M]⟩, broadcast _ c⟩] h (ix3 b r w)
      = if hr : p ≤ r.val ∧ r.val - p < N then x (ix3 b ⟨r.val - p, hr.2⟩ w) else c := by
  have hT : p + (N + (p + 0)) = T := h.2.2
  by_cases h1 : r.val < p
  · rw [dif_neg (by omega)]
    exact concatenate_apply_piece (t := ⟨3, ![B, T, M]⟩) (1 : Fin 3)
        [⟨⟨3, ![B, p, M]⟩, broadcast _ c⟩, ⟨⟨3, ![B, N, M]⟩, x⟩, ⟨⟨3, ![B, p, M]⟩, broadcast _ c⟩] h (ix3 b r w) 0 (by simp) ⟨3, ![B, p, M]⟩ (broadcast _ c) rfl rfl 0 rfl
      (ix3 b ⟨r.val, h1⟩ w)
      (fun b' hb => match b', hb with
        | ⟨0, _⟩, _ => rfl
        | ⟨1, _⟩, hb => absurd rfl hb
        | ⟨2, _⟩, _ => rfl)
      (Nat.zero_add _)
  · by_cases h2 : r.val - p < N
    · rw [dif_pos ⟨by omega, h2⟩]
      exact concatenate_apply_piece (t := ⟨3, ![B, T, M]⟩) (1 : Fin 3)
        [⟨⟨3, ![B, p, M]⟩, broadcast _ c⟩, ⟨⟨3, ![B, N, M]⟩, x⟩, ⟨⟨3, ![B, p, M]⟩, broadcast _ c⟩] h (ix3 b r w) 1 (by simp) ⟨3, ![B, N, M]⟩ x rfl rfl p rfl
        (ix3 b ⟨r.val - p, h2⟩ w)
        (fun b' hb => match b', hb with
          | ⟨0, _⟩, _ => rfl
          | ⟨1, _⟩, hb => absurd rfl hb
          | ⟨2, _⟩, _ => rfl)
        (by show p + (r.val - p) = r.val; omega)
    · rw [dif_neg (by omega)]
      have hr := r.isLt
      exact concatenate_apply_piece (t := ⟨3, ![B, T, M]⟩) (1 : Fin 3)
        [⟨⟨3, ![B, p, M]⟩, broadcast _ c⟩, ⟨⟨3, ![B, N, M]⟩, x⟩, ⟨⟨3, ![B, p, M]⟩, broadcast _ c⟩] h (ix3 b r w) 2 (by simp) ⟨3, ![B, p, M]⟩ (broadcast _ c) rfl rfl (p + N) (by simp)
        (ix3 b ⟨r.val - (p + N), by omega⟩ w)
        (fun b' hb => match b', hb with
          | ⟨0, _⟩, _ => rfl
          | ⟨1, _⟩, hb => absurd rfl hb
          | ⟨2, _⟩, _ => rfl)
        (by show p + N + (r.val - (p + N)) = r.val; omega)

/-- A rank-3 array padded by the constant `c`, `p` deep on both ends of its LAST axis, read at
    `(b, h, r)`: the array at `(b, h, r - p)` where `r - p` is a position of the axis, else `c`. -/
theorem concat_pad_last {B p N M T : ℕ} (c : α) (x : (⟨3, ![B, M, N]⟩ : Shape).Idx → α)
    (h : Shape.Concatenates [(⟨3, ![B, M, p]⟩ : Shape), ⟨3, ![B, M, N]⟩, ⟨3, ![B, M, p]⟩] ⟨3, ![B, M, T]⟩ (2 : Fin 3))
    (b : Fin B) (w : Fin M) (r : Fin T) :
    concatenate (⟨3, ![B, M, T]⟩ : Shape) (2 : Fin 3)
        [⟨⟨3, ![B, M, p]⟩, broadcast _ c⟩, ⟨⟨3, ![B, M, N]⟩, x⟩, ⟨⟨3, ![B, M, p]⟩, broadcast _ c⟩] h (ix3 b w r)
      = if hr : p ≤ r.val ∧ r.val - p < N then x (ix3 b w ⟨r.val - p, hr.2⟩) else c := by
  have hT : p + (N + (p + 0)) = T := h.2.2
  by_cases h1 : r.val < p
  · rw [dif_neg (by omega)]
    exact concatenate_apply_piece (t := ⟨3, ![B, M, T]⟩) (2 : Fin 3)
        [⟨⟨3, ![B, M, p]⟩, broadcast _ c⟩, ⟨⟨3, ![B, M, N]⟩, x⟩, ⟨⟨3, ![B, M, p]⟩, broadcast _ c⟩] h (ix3 b w r) 0 (by simp) ⟨3, ![B, M, p]⟩ (broadcast _ c) rfl rfl 0 rfl
      (ix3 b w ⟨r.val, h1⟩)
      (fun b' hb => match b', hb with
        | ⟨0, _⟩, _ => rfl
        | ⟨1, _⟩, _ => rfl
        | ⟨2, _⟩, hb => absurd rfl hb)
      (Nat.zero_add _)
  · by_cases h2 : r.val - p < N
    · rw [dif_pos ⟨by omega, h2⟩]
      exact concatenate_apply_piece (t := ⟨3, ![B, M, T]⟩) (2 : Fin 3)
        [⟨⟨3, ![B, M, p]⟩, broadcast _ c⟩, ⟨⟨3, ![B, M, N]⟩, x⟩, ⟨⟨3, ![B, M, p]⟩, broadcast _ c⟩] h (ix3 b w r) 1 (by simp) ⟨3, ![B, M, N]⟩ x rfl rfl p rfl
        (ix3 b w ⟨r.val - p, h2⟩)
        (fun b' hb => match b', hb with
          | ⟨0, _⟩, _ => rfl
          | ⟨1, _⟩, _ => rfl
          | ⟨2, _⟩, hb => absurd rfl hb)
        (by show p + (r.val - p) = r.val; omega)
    · rw [dif_neg (by omega)]
      have hr := r.isLt
      exact concatenate_apply_piece (t := ⟨3, ![B, M, T]⟩) (2 : Fin 3)
        [⟨⟨3, ![B, M, p]⟩, broadcast _ c⟩, ⟨⟨3, ![B, M, N]⟩, x⟩, ⟨⟨3, ![B, M, p]⟩, broadcast _ c⟩] h (ix3 b w r) 2 (by simp) ⟨3, ![B, M, p]⟩ (broadcast _ c) rfl rfl (p + N) (by simp)
        (ix3 b w ⟨r.val - (p + N), by omega⟩)
        (fun b' hb => match b', hb with
          | ⟨0, _⟩, _ => rfl
          | ⟨1, _⟩, _ => rfl
          | ⟨2, _⟩, hb => absurd rfl hb)
        (by show p + N + (r.val - (p + N)) = r.val; omega)

/-- A unit-stride slice that starts `d` along the MIDDLE axis of a rank-3 array, read at `(b, h, w)`:
    the array at `(b, d + h, w)`. -/
theorem slice_mid_apply {B N M T d : ℕ} (y : (⟨3, ![B, T, M]⟩ : Shape).Idx → α)
    (hs : (⟨3, ![B, T, M]⟩ : Shape).Slices ![0, d, 0] ⟨3, ![B, N, M]⟩) (b : Fin B) (h : Fin N) (w : Fin M) :
    extractStridedSlice (⟨3, ![B, N, M]⟩ : Shape) ![0, d, 0] y hs (ix3 b h w)
      = y (ix3 b ⟨d + h.val, Nat.lt_of_lt_of_le (Nat.add_lt_add_left h.isLt d) (hs.2 1)⟩ w) :=
  extractStridedSlice_apply _ y hs _ _ (fun a => match a with
    | ⟨0, _⟩ => (Nat.zero_add _).symm
    | ⟨1, _⟩ => rfl
    | ⟨2, _⟩ => (Nat.zero_add _).symm)

/-- A unit-stride slice that starts `d` along the LAST axis of a rank-3 array, read at `(b, h, w)`:
    the array at `(b, h, d + w)`. -/
theorem slice_last_apply {B N M T d : ℕ} (y : (⟨3, ![B, M, T]⟩ : Shape).Idx → α)
    (hs : (⟨3, ![B, M, T]⟩ : Shape).Slices ![0, 0, d] ⟨3, ![B, M, N]⟩) (b : Fin B) (h : Fin M) (w : Fin N) :
    extractStridedSlice (⟨3, ![B, M, N]⟩ : Shape) ![0, 0, d] y hs (ix3 b h w)
      = y (ix3 b h ⟨d + w.val, Nat.lt_of_lt_of_le (Nat.add_lt_add_left w.isLt d) (hs.2 2)⟩) :=
  extractStridedSlice_apply _ y hs _ _ (fun a => match a with
    | ⟨0, _⟩ => (Nat.zero_add _).symm
    | ⟨1, _⟩ => (Nat.zero_add _).symm
    | ⟨2, _⟩ => rfl)

/-- The slice at offset `d` of the middle axis of an array of extended reals padded along that axis. -/
theorem slice_pad_mid {B p N M T d : ℕ} (c : EReal) (x : (⟨3, ![B, N, M]⟩ : Shape).Idx → EReal)
    (hc : Shape.Concatenates [(⟨3, ![B, p, M]⟩ : Shape), ⟨3, ![B, N, M]⟩, ⟨3, ![B, p, M]⟩] ⟨3, ![B, T, M]⟩ (1 : Fin 3))
    (hs : (⟨3, ![B, T, M]⟩ : Shape).Slices ![0, d, 0] ⟨3, ![B, N, M]⟩) (b : Fin B) (h : Fin N) (w : Fin M) :
    extractStridedSlice (⟨3, ![B, N, M]⟩ : Shape) ![0, d, 0]
        (concatenate (⟨3, ![B, T, M]⟩ : Shape) (1 : Fin 3)
          [⟨⟨3, ![B, p, M]⟩, broadcast _ c⟩, ⟨⟨3, ![B, N, M]⟩, x⟩, ⟨⟨3, ![B, p, M]⟩, broadcast _ c⟩] hc) hs (ix3 b h w)
      = padRead p c (fun h' => x (ix3 b h' w)) (d + h.val) := by
  rw [slice_mid_apply, concat_pad_mid]
  rfl

/-- The slice at offset `d` of the last axis of an array of extended reals padded along that axis. -/
theorem slice_pad_last {B p N M T d : ℕ} (c : EReal) (x : (⟨3, ![B, M, N]⟩ : Shape).Idx → EReal)
    (hc : Shape.Concatenates [(⟨3, ![B, M, p]⟩ : Shape), ⟨3, ![B, M, N]⟩, ⟨3, ![B, M, p]⟩] ⟨3, ![B, M, T]⟩ (2 : Fin 3))
    (hs : (⟨3, ![B, M, T]⟩ : Shape).Slices ![0, 0, d] ⟨3, ![B, M, N]⟩) (b : Fin B) (h : Fin M) (w : Fin N) :
    extractStridedSlice (⟨3, ![B, M, N]⟩ : Shape) ![0, 0, d]
        (concatenate (⟨3, ![B, M, T]⟩ : Shape) (2 : Fin 3)
          [⟨⟨3, ![B, M, p]⟩, broadcast _ c⟩, ⟨⟨3, ![B, M, N]⟩, x⟩, ⟨⟨3, ![B, M, p]⟩, broadcast _ c⟩] hc) hs (ix3 b h w)
      = padRead p c (fun w' => x (ix3 b h w')) (d + w.val) := by
  rw [slice_last_apply, concat_pad_last]
  rfl

end Layout

/-! ## Two constants and a mask at the ideal instance -/

/-- The word `0xFF800000` is `-∞`. -/
theorem ofBits_neg_inf : FloatOps.ofBits (F := Ideal) .f32 0xFF800000#32 = (⊥ : EReal) := by
  show Ideal.ofBits .f32 0xFF800000#32 = ⊥
  simp [Ideal.ofBits, Ideal.ieee]

/-- A one-bit flag widened to a word and read as a signed integer is the flag read unsigned: `0` or `1`. -/
theorem sitofp_setWidth_bit (c : BitVec 1) :
    FloatOps.sitofp (F := Ideal) .f32 (c.setWidth 32) = FloatOps.uitofp (F := Ideal) .f32 c := by
  show (((c.setWidth 32).toInt : ℝ) : EReal) = ((c.toNat : ℝ) : EReal)
  by_cases hc : c = 1#1
  · subst hc; simp
  · have := eq_zero_of_ne_one hc; subst this; simp

/-! ## Suppression of non-maxima -/

/-- The flag "`a` equals `b`" as a number: `1` when they are equal, else `0`. -/
def keep (a b : EReal) : EReal :=
  FloatOps.uitofp (F := Ideal) .f32 (FloatOps.cmpf (F := Ideal) (φ := .f32) .oeq a b)

/-- A value multiplied in turn by the flags that it equals each of three window maxima. -/
def nms (x p3 p5 p7 : EReal) : EReal := ((x * keep p3 x) * keep p5 x) * keep p7 x

/-- Non-maximum suppression at `(h, w)` of a 192 × 192 plane: the entry, kept only where it is the maximum of
    its 3 × 3, 5 × 5 and 7 × 7 neighbourhoods in the plane padded with `-∞`. -/
def nmsPlane (g : Fin 192 → Fin 192 → EReal) (h w : Fin 192) : EReal :=
  nms (g h w) (pool2 3 1 g h.val w.val) (pool2 5 2 g h.val w.val) (pool2 7 3 g h.val w.val)

/-- THE RESULT both programs compute, as one function of the input array `[16, 80, 192, 192]`: at
    `(n, c, h, w)` the suppression of plane `(n, c)` at `(h, w)`. -/
def G4 (x : (⟨4, ![16, 80, 192, 192]⟩ : Shape).Idx → EReal) : (⟨4, ![16, 80, 192, 192]⟩ : Shape).Idx → EReal := fun i =>
  nmsPlane (fun h' w' => x (ix4 (i 0) (i 1) h' w')) (i 2) (i 3)

/-- `G4` at an index given by its coordinates. -/
theorem G4_apply (x : (⟨4, ![16, 80, 192, 192]⟩ : Shape).Idx → EReal) (n : Fin 16) (c : Fin 80) (h w : Fin 192) :
    G4 x (ix4 n c h w) = nmsPlane (fun h' w' => x (ix4 n c h' w')) h w := rfl

end Cert.Nms

end
-- ==== Proof.BlockValue.lean ====
/-
  What the kernel's body stores at one position of its block.

  The body keeps a value only where it equals the maximum over the 3 × 3, the 5 × 5 and the 7 × 7 window
  round it (the plane padded with `-∞`), multiplying it by the three 0/1 flags in turn. Each window maximum
  is computed separably — a running maximum down the columns of the padded block, then along the rows of
  the padded result — and `sep_pool` says that is the maximum over the square window.
-/
import proofs.«157762_j73598559584661_1_alg».proof.Proof.Gen.KernelIdeal.Skeleton
import proofs.«157762_j73598559584661_1_alg».proof.Proof.PadWindow

noncomputable section

namespace Cert.Nms

open Idealize.ShloMosaic Idealize.ShloMosaic.ValueIdx Cert.KernelIdeal Cert.KernelIdeal.Gen

/-- The body's stored value at `(b, h, w)` of a block is the suppression of plane `b` of the loaded block at `(h, w)`. -/
theorem payload_apply (x0 : Vec Ideal S16x192x192 .f32) (b : Fin 16) (h w : Fin 192) :
    k0_pay1 (k0_pay2 x0) (k0_pay3 x0) (k0_pay4 x0) (k0_pay5 x0) (ix3 b h w)
      = nmsPlane (fun h' w' => x0 (ix3 b h' w')) h w := by
  unfold k0_pay1 k0_pay3 k0_pay5 k0_pay4 k0_pay2
  dsimp only
  -- every operation read at the index; a slice of a padded array is a padded read
  simp only [mulf_apply, sitofp_apply, extui_apply, cmpf_apply, maximumf_apply, shapeCast_self, slice_pad_mid,
    slice_pad_last]
  simp only [sitofp_setWidth_bit, ofBits_neg_inf]
  -- the three separable maxima are the square windows' maxima
  have e3 := sep_pool 3 1 (fun a => max (max (a 0) (a 1)) (a 2)) max3_le_iff (fun h' w' => x0 (ix3 b h' w')) h.val w.val
  have e5 := sep_pool 5 2 (fun a => max (max (max (max (a 0) (a 1)) (a 2)) (a 3)) (a 4)) max5_le_iff
    (fun h' w' => x0 (ix3 b h' w')) h.val w.val
  have e7 := sep_pool 7 3 (fun a => max (max (max (max (max (max (a 0) (a 1)) (a 2)) (a 3)) (a 4)) (a 5)) (a 6))
    max7_le_iff (fun h' w' => x0 (ix3 b h' w')) h.val w.val
  dsimp only at e3 e5 e7
  rw [e3, e5, e7]
  rfl

end Cert.Nms

end
-- ==== Proof.KernelValue.lean ====
/-
  The kernel's result array.

  The program reshapes the input `[16, 80, 192, 192]` to `[1280, 192, 192]`, runs the kernel over 80 grid points —
  point `t` loads planes `16 t … 16 t + 15` whole, and stores their suppression back to the same planes of the
  output — and reshapes the output back. The blocks tile the output, so it ends holding the suppression of every
  plane of the reshaped input (`G3`); read through the two reshapes, which keep row-major order, plane
  `80 n + c` of the rank-3 array is plane `(n, c)` of the rank-4 one, and the result is `G4` of the input.
-/
import proofs.«157762_j73598559584661_1_alg».proof.Proof.Gen.KernelIdeal.Frame
import proofs.«157762_j73598559584661_1_alg».proof.Proof.BlockValue
import Idealize.ShloMosaic.Lib.Pipeline.Value
import Idealize.ShloMosaic.Lib.StableHlo.Run

set_option maxRecDepth 16384

noncomputable section

namespace Cert.Nms

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The suppression of every plane of a `[1280, 192, 192]` array. -/
def G3 (y : S1280x192x192.Idx → EReal) : S1280x192x192.Idx → EReal := fun i =>
  nmsPlane (fun h' w' => y (ix3 (i 0) h' w')) (i 1) (i 2)

/-- `G3` at an index given by its coordinates. -/
theorem G3_apply (y : S1280x192x192.Idx → EReal) (b : Fin 1280) (h w : Fin 192) :
    G3 y (ix3 b h w) = nmsPlane (fun h' w' => y (ix3 b h' w')) h w := rfl

/-- The body's load and store start at the origin of their buffers. -/
theorem offsets_zero : (![0, 0, 0] : Fin 3 → Nat) = fun _ => 0 := funext fun a => by fin_cases a <;> rfl

/-- Both windows' block at point `t` is block `t` along the leading axis and the whole of the other two. -/
theorem block_index : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- Position `(b, h, w)` of the input block at point `t` is position `(16 t + b, h, w)` of the array. -/
theorem in_emb (t : Fin cfg0.N) (b : Fin 16) (h w : Fin 192) (hb : t.val * 16 + b.val < 1280) :
    ((cfg0.win 0).blk t).view.emb (ix3 b h w) = (ix3 (⟨t.val * 16 + b.val, hb⟩ : Fin 1280) h w : S1280x192x192.Idx) := by
  obtain ⟨e0, e1, e2, -, -, -⟩ := block_index t
  funext a; apply Fin.ext
  match a with
  | ⟨0, _⟩ => show win0_0.index t (0 : Fin 3) * 16 + 1 * b.val = t.val * 16 + b.val; omega
  | ⟨1, _⟩ => show win0_0.index t (1 : Fin 3) * 192 + 1 * h.val = h.val; omega
  | ⟨2, _⟩ => show win0_0.index t (2 : Fin 3) * 192 + 1 * w.val = w.val; omega

/-- The same for the output block. -/
theorem out_emb (t : Fin cfg0.N) (b : Fin 16) (h w : Fin 192) (hb : t.val * 16 + b.val < 1280) :
    ((cfg0.win 1).blk t).view.emb (ix3 b h w) = (ix3 (⟨t.val * 16 + b.val, hb⟩ : Fin 1280) h w : S1280x192x192.Idx) := by
  obtain ⟨-, -, -, e0, e1, e2⟩ := block_index t
  funext a; apply Fin.ext
  match a with
  | ⟨0, _⟩ => show win0_1.index t (0 : Fin 3) * 16 + 1 * b.val = t.val * 16 + b.val; omega
  | ⟨1, _⟩ => show win0_1.index t (1 : Fin 3) * 192 + 1 * h.val = h.val; omega
  | ⟨2, _⟩ => show win0_1.index t (2 : Fin 3) * 192 + 1 * w.val = w.val; omega

/-- WHAT POINT `t` WRITES BACK is block `t` of the suppression of the reshaped input. -/
theorem flushed_eq (c : Dev nD) (t : Fin cfg0.N) :
    (dats m 0 c).flushed 1 t = ((cfg0.win 1).blk t).view.read (Elt Ideal) (G3 (V m c main_v0)) := by
  show (cfg0.win 1).cut (grid0.coords t) ((dats m 0 c).after 1 t) = _
  rw [after0_1]
  unfold out0_1
  rw [View.canon_unit_zero offsets_zero]
  simp only [View.ld_unit_zero (S := S16x192x192) offsets_zero]
  funext j
  obtain ⟨b, h, w, rfl⟩ : ∃ (b : Fin 16) (h w : Fin 192), j = ix3 b h w := ⟨j 0, j 1, j 2, eq_ix3 j⟩
  have ht : t.val < 80 := lt_of_lt_of_eq t.isLt N_0
  have hb : t.val * 16 + b.val < 1280 := by have := b.isLt; omega
  show k0_pay1 (k0_pay2 (iblk m c 0 t)) (k0_pay3 (iblk m c 0 t)) (k0_pay4 (iblk m c 0 t)) (k0_pay5 (iblk m c 0 t)) (ix3 b h w)
    = G3 (V m c main_v0) (((cfg0.win 1).blk t).view.emb (ix3 b h w))
  refine (payload_apply (iblk m c 0 t) b h w).trans ?_
  rw [out_emb t b h w hb, G3_apply]
  refine congrArg (fun g => nmsPlane g h w) (funext fun h' => funext fun w' => ?_)
  show V m c main_v0 (((cfg0.win 0).blk t).view.emb (ix3 b h' w')) = _
  rw [in_emb t b h' w' hb]

/-- An index of the output array is in point `t`'s block iff each coordinate is in the block's range on its axis. -/
theorem mem_blk (t : Fin cfg0.N) (i : S1280x192x192.Idx) :
    i ∈ ((cfg0.win 1).blk t).view.set ↔ ∀ a : Fin 3, win0_1.index t a * S16x192x192.size a ≤ (i a).val
      ∧ (i a).val < win0_1.index t a * S16x192x192.size a + S16x192x192.size a := by
  show i ∈ ((View.whole main_v1).slice (win0_1.rect t)).set ↔ _
  rw [View.set_slice_whole, Rect.mem_set_unit]
  exact Iff.rfl

/-- The 80 blocks tile the output: plane `r` lies in block `r / 16`. -/
theorem cover (i : S1280x192x192.Idx) :
    ∃ t : Fin cfg0.N, (cfg0.win 1).flush t = true ∧ i ∈ ((cfg0.win 1).blk t).view.set := by
  have hi0 : (i 0).val < 1280 := (i 0).isLt
  have hi1 : (i 1).val < 192 := (i 1).isLt
  have hi2 : (i 2).val < 192 := (i 2).isLt
  let t : Fin cfg0.N := ⟨(i 0).val / 16, lt_of_lt_of_eq (by omega) N_0.symm⟩
  obtain ⟨-, -, -, e0, e1, e2⟩ := block_index t
  have e0' : win0_1.index t (0 : Fin 3) = (i 0).val / 16 := e0
  refine ⟨t, flush0_1 t, ?_⟩
  rw [mem_blk]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 192 ≤ (i 1).val ∧ (i 1).val < win0_1.index t (1 : Fin 3) * 192 + 192; omega
  | ⟨2, _⟩ => show win0_1.index t (2 : Fin 3) * 192 ≤ (i 2).val ∧ (i 2).val < win0_1.index t (2 : Fin 3) * 192 + 192; omega

/-- THE OUTPUT ARRAY after the run: the suppression of every plane of the reshaped input. -/
theorem final (c : Dev nD) : (dats m 0 c).arrAt 1 cfg0.N = G3 (V m c main_v0) :=
  (dats m 0 c).arrAt_eq_of_cover 1 (G3 (V m c main_v0)) (fun t _ => flushed_eq m c t) cover

/-- The kernel's operand is the input reshaped. -/
theorem V_main_v0 (c : Dev nD) : (V m c main_v0 : S1280x192x192.Idx → EReal)
    = shapeCast S1280x192x192 (m ((c : Thread nD τ).loc main_arg0)) Facts₀.shapeCasts_S16x80x192x192_S1280x192x192 := by
  show StableHlo.after hostOps0 (fun b => m (c, b)) (Proc.devRef .tc main_v0) = _
  after_results
  rfl

/-- The program's result is the kernel's output reshaped. -/
theorem tail_main_v2 (c : Dev nD) :
    (Pipeline.afterTail₀ cfgs (dats m) 0 (V0 m) [hostOps1] c main_v2 : S16x80x192x192.Idx → EReal)
      = shapeCast S16x80x192x192 ((dats m 0 c).arrAt 1 cfg0.N) Facts₀.shapeCasts_S1280x192x192_S16x80x192x192 := by
  unfold Pipeline.afterTail₀
  show StableHlo.after hostOps1 _ (Proc.devRef .tc main_v2) = _
  after_results
  exact congrArg (fun y => shapeCast S16x80x192x192 y Facts₀.shapeCasts_S1280x192x192_S16x80x192x192)
    (Pipeline.withArrays_arr spec0 launch0.win.arr_inj c (V0 m c) (fun w => (dats m 0 c).arrAt w (cfgs 0).N) 1)

/-- Through the two reshapes the suppression of the rank-3 array's planes is `G4` of the rank-4 input. -/
theorem reshaped_eq (x : S16x80x192x192.Idx → EReal) :
    shapeCast S16x80x192x192 (G3 (shapeCast S1280x192x192 x Facts₀.shapeCasts_S16x80x192x192_S1280x192x192))
      Facts₀.shapeCasts_S1280x192x192_S16x80x192x192 = G4 x := by
  funext i
  obtain ⟨n, c, h, w, rfl⟩ : ∃ (n : Fin 16) (c : Fin 80) (h w : Fin 192), i = ix4 n c h w :=
    ⟨i 0, i 1, i 2, i 3, eq_ix4 i⟩
  have hp : n.val * 80 + c.val < 1280 := by have := n.isLt; have := c.isLt; omega
  rw [shapeCast_apply _ _ (ix4 n c h w) (ix3 (⟨n.val * 80 + c.val, hp⟩ : Fin 1280) h w)
    (by rw [Shape.rowMajor_val_three, Shape.rowMajor_val_four]; rfl), G3_apply, G4_apply]
  refine congrArg (fun g => nmsPlane g h w) (funext fun h' => funext fun w' => ?_)
  exact shapeCast_apply _ _ (ix3 (⟨n.val * 80 + c.val, hp⟩ : Fin 1280) h' w') (ix4 n c h' w')
    (by rw [Shape.rowMajor_val_three, Shape.rowMajor_val_four]; rfl)

/-- THE KERNEL'S RUN: every weakly fair execution ends with the result at `G4` of the input, the input unchanged. -/
theorem kernel_run : θ_run defs (onTc (τ := τ) (main (F := Ideal))) ⟨m, fun _ => 0, ρ⟩ fun r => ∀ c : Dev nD,
      r.2.mem ((c.tc : Thread nD τ).loc main_v2) = G4 (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans
        ((tail_main_v2 m c).trans (by rw [final, V_main_v0]; exact reshaped_eq _)),
      ((h c).2 main_arg0 (Pipeline.mem_restRefs_of main_arg0 (by decide) (by decide))).trans (W_main_arg0 m (dats m) c)⟩)
    (run_main m ρ)

end Cert.Nms

end
-- ==== Proof.WindowFold.lean ====
/-
  The host's window reduction by `max`, read as a maximum over a padded window.

  `stablehlo.reduce_window` folds its body, from the initial value, over the positions of a window
  laid on the padded operand. With the body `max` and the initial value `-∞` the fold lies below a
  bound exactly when every operand entry under the window does; for a window that is `1 × 1 × k × k`
  over a rank-4 array, unit strides, padded `p` deep on the last two axes, that makes the result at
  `(n, c, h, w)` the maximum over the `k × k` window at `(h, w)` of the padded plane `(n, c)`.
-/
import proofs.«157762_j73598559584661_1_alg».proof.Proof.PadWindow

noncomputable section

namespace Cert.Nms

open Idealize.ShloMosaic Idealize.ShloMosaic.ValueIdx

/-- A choice between a value and `-∞` lies below `v` exactly when the value, where it is chosen, does. -/
theorem dite_bot_le_iff {P : Prop} [Decidable P] (f : P → EReal) (v : EReal) :
    (if h : P then f h else ⊥) ≤ v ↔ ∀ h : P, f h ≤ v := by
  split
  · next h => exact ⟨fun hv _ => hv, fun hv => hv h⟩
  · next h => exact ⟨fun _ h' => absurd h' h, fun _ => bot_le⟩

/-- A window reduction by `max` from `-∞` lies below `v` exactly when every operand entry under the window
    does: for every window position `d` that falls inside the operand (`hin`), the entry there. -/
theorem reduceWindow_max_le_iff {s t u : Shape} (window strides lo hi : Fin s.rank → ℕ) (x : s.Idx → EReal)
    (init : u.Idx → EReal) (h : s.ReduceWindows window strides lo hi t) (hu : 0 < u.numel)
    (hinit : init (Shape.Idx.first hu) = ⊥) (j : t.Idx) (v : EReal) :
    Host.reduceWindow (max : EReal → EReal → EReal) window strides lo hi x init h hu j ≤ v
      ↔ ∀ (d : (⟨s.rank, window⟩ : Shape).Idx)
          (hin : ∀ a, lo a ≤ (j (a.cast h.1.symm)).val * strides a + (d a).val
            ∧ (j (a.cast h.1.symm)).val * strides a + (d a).val - lo a < s.size a),
          x (fun a => ⟨(j (a.cast h.1.symm)).val * strides a + (d a).val - lo a, (hin a).2⟩) ≤ v := by
  unfold Host.reduceWindow
  dsimp only
  rw [hinit]
  refine (foldl_max_le_iff _ _ ⊥ v).trans ?_
  simp only [bot_le, true_and, List.mem_finRange, forall_true_left, dite_bot_le_iff]
  have key : ∀ P : (⟨s.rank, window⟩ : Shape).Idx → Prop,
      (∀ d, P d) ↔ ∀ n, P ((⟨s.rank, window⟩ : Shape).rowMajor.symm n) := fun P =>
    ⟨fun H n => H _, fun H d => by
      have := H ((⟨s.rank, window⟩ : Shape).rowMajor d)
      rwa [Equiv.symm_apply_apply] at this⟩
  refine Iff.symm ?_
  exact key _

/-- A `1 × 1 × k × k` window reduction by `max` from `-∞` over a rank-4 array, unit strides, the last two
    axes padded `p` deep: at `(n, c, h, w)` the maximum over the `k × k` window at `(h, w)` of the padded plane
    `(n, c)`. -/
theorem reduceWindow_plane {A C N M k p : ℕ} (x : (⟨4, ![A, C, N, M]⟩ : Shape).Idx → EReal) {u : Shape}
    (init : u.Idx → EReal)
    (h : (⟨4, ![A, C, N, M]⟩ : Shape).ReduceWindows (![1, 1, k, k] : Fin 4 → ℕ) ![1, 1, 1, 1] ![0, 0, p, p] ![0, 0, p, p]
      ⟨4, ![A, C, N, M]⟩)
    (hu : 0 < u.numel) (hinit : init (Shape.Idx.first hu) = ⊥) (n : Fin A) (c : Fin C) (hh : Fin N) (ww : Fin M) :
    Host.reduceWindow (s := ⟨4, ![A, C, N, M]⟩) (max : EReal → EReal → EReal) (![1, 1, k, k] : Fin 4 → ℕ) ![1, 1, 1, 1]
        ![0, 0, p, p] ![0, 0, p, p] x init h hu (ix4 n c hh ww)
      = pool2 k p (fun h' w' => x (ix4 n c h' w')) hh.val ww.val := by
  refine eq_pool2_of_bound _ fun v => ?_
  rw [reduceWindow_max_le_iff _ _ _ _ x init h hu hinit]
  unfold WinBound
  constructor
  · intro H dh hdh dw hdw hh' hw'
    have hin : ∀ a : Fin 4, (![0, 0, p, p] : Fin 4 → ℕ) a ≤ ((ix4 n c hh ww) (a.cast h.1.symm)).val * (![1, 1, 1, 1] : Fin 4 → ℕ) a
          + ((ix4 (0 : Fin 1) (0 : Fin 1) (⟨dh, hdh⟩ : Fin k) (⟨dw, hdw⟩ : Fin k)) a).val
        ∧ ((ix4 n c hh ww) (a.cast h.1.symm)).val * (![1, 1, 1, 1] : Fin 4 → ℕ) a
          + ((ix4 (0 : Fin 1) (0 : Fin 1) (⟨dh, hdh⟩ : Fin k) (⟨dw, hdw⟩ : Fin k)) a).val - (![0, 0, p, p] : Fin 4 → ℕ) a
          < (⟨4, ![A, C, N, M]⟩ : Shape).size a := fun a => match a with
      | ⟨0, _⟩ => by
        show 0 ≤ n.val * 1 + 0 ∧ n.val * 1 + 0 - 0 < A
        have := n.isLt; omega
      | ⟨1, _⟩ => by
        show 0 ≤ c.val * 1 + 0 ∧ c.val * 1 + 0 - 0 < C
        have := c.isLt; omega
      | ⟨2, _⟩ => by
        show p ≤ hh.val * 1 + dh ∧ hh.val * 1 + dh - p < N
        omega
      | ⟨3, _⟩ => by
        show p ≤ ww.val * 1 + dw ∧ ww.val * 1 + dw - p < M
        omega
    have := H (ix4 (0 : Fin 1) (0 : Fin 1) (⟨dh, hdh⟩ : Fin k) (⟨dw, hdw⟩ : Fin k)) hin
    refine le_of_eq_of_le (congrArg x (funext fun a => ?_)) this
    match a with
    | ⟨0, _⟩ => exact Fin.ext (by show n.val = n.val * 1 + 0 - 0; omega)
    | ⟨1, _⟩ => exact Fin.ext (by show c.val = c.val * 1 + 0 - 0; omega)
    | ⟨2, _⟩ => exact Fin.ext (by show dh + hh.val - p = hh.val * 1 + dh - p; omega)
    | ⟨3, _⟩ => exact Fin.ext (by show dw + ww.val - p = ww.val * 1 + dw - p; omega)
  · intro H d hin
    · have h0 : (d (0 : Fin 4)).val < 1 := (d (0 : Fin 4)).isLt
      have h1 : (d (1 : Fin 4)).val < 1 := (d (1 : Fin 4)).isLt
      have h2 : (d (2 : Fin 4)).val < k := (d (2 : Fin 4)).isLt
      have h3 : (d (3 : Fin 4)).val < k := (d (3 : Fin 4)).isLt
      have i2 : p ≤ hh.val * 1 + (d (2 : Fin 4)).val ∧ hh.val * 1 + (d (2 : Fin 4)).val - p < N := hin (2 : Fin 4)
      have i3 : p ≤ ww.val * 1 + (d (3 : Fin 4)).val ∧ ww.val * 1 + (d (3 : Fin 4)).val - p < M := hin (3 : Fin 4)
      refine le_of_eq_of_le (congrArg x (funext fun a => ?_))
        (H (d (2 : Fin 4)).val h2 (d (3 : Fin 4)).val h3 ⟨by omega, by omega⟩ ⟨by omega, by omega⟩)
      match a with
      | ⟨0, _⟩ => exact Fin.ext (by show n.val * 1 + (d (0 : Fin 4)).val - 0 = n.val; omega)
      | ⟨1, _⟩ => exact Fin.ext (by show c.val * 1 + (d (1 : Fin 4)).val - 0 = c.val; omega)
      | ⟨2, _⟩ => exact Fin.ext (by show hh.val * 1 + (d (2 : Fin 4)).val - p = (d (2 : Fin 4)).val + hh.val - p; omega)
      | ⟨3, _⟩ => exact Fin.ext (by show ww.val * 1 + (d (3 : Fin 4)).val - p = (d (3 : Fin 4)).val + ww.val - p; omega)

end Cert.Nms

end
-- ==== Proof.RefValue.lean ====
/-
  The reference, index by index.

  The reference takes the three window maxima by `reduce_window` over the whole rank-4 array and multiplies
  the input by the three equality flags in turn. At `(n, c, h, w)` each window reduction is the maximum over a
  square window of the padded plane `(n, c)`, so the result there is the suppression of that plane at `(h, w)`.
-/
import proofs.«157762_j73598559584661_1_alg».proof.Proof.Gen.ReferenceIdeal.Read
import proofs.«157762_j73598559584661_1_alg».proof.Proof.WindowFold

noncomputable section

namespace Cert.Nms

open Idealize.ShloMosaic Idealize.ShloMosaic.ValueIdx Cert.ReferenceIdeal Cert.ReferenceIdeal.Read

/-- The three window reductions start from `-∞`: the first, -/
theorem init0 : val_main_v0 (F := Ideal) (Shape.Idx.first Facts₀.h_S_) = (⊥ : EReal) := by
  rw [val_main_v0_apply, val_main_cst_apply]; exact ofBits_neg_inf
/-- the second, -/
theorem init3 : val_main_v3 (F := Ideal) (Shape.Idx.first Facts₀.h_S_) = (⊥ : EReal) := by
  rw [val_main_v3_apply, val_main_cst_0_apply]; exact ofBits_neg_inf
/-- and the third. -/
theorem init6 : val_main_v6 (F := Ideal) (Shape.Idx.first Facts₀.h_S_) = (⊥ : EReal) := by
  rw [val_main_v6_apply, val_main_cst_1_apply]; exact ofBits_neg_inf

/-- The reference's result is `G4` of its argument. -/
theorem ref_eq (x : (⟨S16x80x192x192, .f32⟩ : BufTy).Contents (Elt Ideal)) : val_main_v14 (F := Ideal) x = G4 x := by
  funext i
  obtain ⟨n, c, h, w, rfl⟩ : ∃ (n : Fin 16) (c : Fin 80) (h w : Fin 192), i = ix4 n c h w :=
    ⟨i 0, i 1, i 2, i 3, eq_ix4 i⟩
  have e1 : val_main_v1 (F := Ideal) x (ix4 n c h w) = pool2 3 1 (fun h' w' => x (ix4 n c h' w')) h.val w.val :=
    reduceWindow_plane x _ _ _ init0 n c h w
  have e4 : val_main_v4 (F := Ideal) x (ix4 n c h w) = pool2 5 2 (fun h' w' => x (ix4 n c h' w')) h.val w.val :=
    reduceWindow_plane x _ _ _ init3 n c h w
  have e7 : val_main_v7 (F := Ideal) x (ix4 n c h w) = pool2 7 3 (fun h' w' => x (ix4 n c h' w')) h.val w.val :=
    reduceWindow_plane x _ _ _ init6 n c h w
  rw [val_main_v14_apply, val_main_v12_apply, val_main_v10_apply, val_main_v9_apply, val_main_v11_apply,
    val_main_v13_apply, val_main_v2_apply, val_main_v5_apply, val_main_v8_apply, e1, e4, e7]
  rfl

end Cert.Nms

end
-- ==== Proof.lean ====
/-
  Pseudo-NMS of a heat map `[16, 80, 192, 192]`: the kernel against its jnp reference, over the extended reals.

  Both programs keep an entry of the heat map only where it equals the maximum of its 3 × 3, of its 5 × 5 and of
  its 7 × 7 neighbourhood in its own plane (the plane padded with `-∞`), multiplying the entry by the three 0/1
  equality flags in turn, in the same order. They differ in how a window maximum is taken. The reference reduces
  a `k × k` window with `max` from `-∞` in one pass. The kernel works on blocks of 16 planes of the array reshaped
  to `[1280, 192, 192]`, pads a block with `-∞` along the rows and takes a running maximum of `k` shifted slices,
  then pads the result along the columns and does the same. A maximum over a square window is the maximum along
  one axis of the maxima along the other, and `-∞` is neutral for `max`, so the two agree on every extended real
  (no finiteness is needed: only the order's lattice laws are used). Plane `80 n + c` of the reshaped array is
  plane `(n, c)` of the heat map, so both results are one function `G4` of the input, index by index.

  The modules: PadWindow (padded reads, bounds of running maxima, separability, the padded array and its slices
  read at an index, and the result `G4`), WindowFold (the host's window reduction as a window maximum),
  BlockValue (the kernel body's stored value at a position), KernelValue (blocks to the array, the two reshapes,
  the kernel's run), RefValue (the reference index by index). The three frames are the generated frame runs;
  the ideal pass rewrote nothing, so `preserves` has nothing to state.
-/
import proofs.«157762_j73598559584661_1_alg».proof.Defs
import proofs.«157762_j73598559584661_1_alg».proof.Proof.Gen.Kernel
import proofs.«157762_j73598559584661_1_alg».proof.Proof.Gen.Kernel.Skeleton
import proofs.«157762_j73598559584661_1_alg».proof.Proof.Gen.Kernel.Launch
import proofs.«157762_j73598559584661_1_alg».proof.Proof.Gen.Kernel.Points
import proofs.«157762_j73598559584661_1_alg».proof.Proof.Gen.Kernel.Frame
import proofs.«157762_j73598559584661_1_alg».proof.Proof.Gen.KernelIdeal
import proofs.«157762_j73598559584661_1_alg».proof.Proof.Gen.KernelIdeal.Skeleton
import proofs.«157762_j73598559584661_1_alg».proof.Proof.Gen.KernelIdeal.Launch
import proofs.«157762_j73598559584661_1_alg».proof.Proof.Gen.KernelIdeal.Points
import proofs.«157762_j73598559584661_1_alg».proof.Proof.Gen.KernelIdeal.Frame
import proofs.«157762_j73598559584661_1_alg».proof.Proof.Gen.ReferenceIdeal
import proofs.«157762_j73598559584661_1_alg».proof.Proof.Gen.ReferenceIdeal.Run
import proofs.«157762_j73598559584661_1_alg».proof.Proof.Gen.ReferenceIdeal.Read
import proofs.«157762_j73598559584661_1_alg».proof.Proof.Gen.Pre_finite_inputs
import proofs.«157762_j73598559584661_1_alg».proof.Proof.KernelValue
import proofs.«157762_j73598559584661_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves the heat map as it found it. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with `G4` of the heat map they were given, and the heat maps agree. -/
theorem algebraic : Cert.algebraic_KernelIdeal_ReferenceIdeal := by
  intro m ρ m' ρ' _ hagree
  refine ⟨fun c => Cert.Nms.G4 (m ((c.tc : Thread Cert.KernelIdeal.nD Cert.KernelIdeal.τ).loc Cert.KernelIdeal.main_arg0)),
    Cert.Nms.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Nms.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
